-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8 : Shape := ⟨2, ![512, 8]⟩
abbrev S1x512x10x16x8 : Shape := ⟨5, ![1, 512, 10, 16, 8]⟩
abbrev S_ : Shape := ⟨0, ![]⟩

class Facts : Prop where
  bcast_S_S512x8 : S_.BroadcastsInDim S512x8 (![] : Fin 0 → Fin S512x8.rank)
  reducesTo_S512x8_S_d0_1 : S512x8.ReducesTo [0, 1] S_
  h_S_ : 0 < S_.numel
  bcast_S_S1x512x10x16x8 : S_.BroadcastsInDim S1x512x10x16x8 (![] : Fin 0 → Fin S1x512x10x16x8.rank)
  reducesTo_S1x512x10x16x8_S_d0_1_2_3_4 : S1x512x10x16x8.ReducesTo [0, 1, 2, 3, 4] S_

variable [Facts]

def fn {F : FTy → Type} [FloatOps F] (main_arg0 : FVec F S512x8 .f32) (main_arg1 : FVec F S1x512x10x16x8 .f32) : IVec S_ 1 :=
  let main_v0 : FVec F S512x8 .f32 := Host.absf main_arg0
  let main_cst : FVec F S_ .f32 := constant S_ .f32 0x7F800000#32
  let main_v1 : FVec F S512x8 .f32 := broadcastInDim S512x8 ![] bcast_S_S512x8 main_cst
  let main_v2 : IVec S512x8 1 := cmpf .olt main_v0 main_v1
  let main_c : IVec S_ 1 := constantI S_ 1 1#1
  let main_v3 : IVec S_ 1 := (fun x v => Host.reduce IntOp.andi x v reducesTo_S512x8_S_d0_1 h_S_) main_v2 main_c
  let main_v4 : FVec F S1x512x10x16x8 .f32 := Host.absf main_arg1
  let main_cst_0 : FVec F S_ .f32 := constant S_ .f32 0x7F800000#32
  let main_v5 : FVec F S1x512x10x16x8 .f32 := broadcastInDim S1x512x10x16x8 ![] bcast_S_S1x512x10x16x8 main_cst_0
  let main_v6 : IVec S1x512x10x16x8 1 := cmpf .olt main_v4 main_v5
  let main_c_1 : IVec S_ 1 := constantI S_ 1 1#1
  let main_v7 : IVec S_ 1 := (fun x v => Host.reduce IntOp.andi x v reducesTo_S1x512x10x16x8_S_d0_1_2_3_4 h_S_) main_v6 main_c_1
  let main_v8 : IVec S_ 1 := andi main_v3 main_v7
  main_v8
-- ==== Kernel.lean ====
abbrev S512x8 : Shape := ⟨2, ![512, 8]⟩
abbrev S1x512x10x16x8 : Shape := ⟨5, ![1, 512, 10, 16, 8]⟩
abbrev S512x10x16x8 : Shape := ⟨4, ![512, 10, 16, 8]⟩
abbrev S10x16 : Shape := ⟨2, ![10, 16]⟩
abbrev S64x10x16x8 : Shape := ⟨4, ![64, 10, 16, 8]⟩
abbrev S64x8 : Shape := ⟨2, ![64, 8]⟩
abbrev S64x1x1x8 : Shape := ⟨4, ![64, 1, 1, 8]⟩
abbrev S64x10x16 : Shape := ⟨3, ![64, 10, 16]⟩
abbrev S1x1x10x16x1 : Shape := ⟨5, ![1, 1, 10, 16, 1]⟩

abbrev nBuf : Space → Nat
  | .hbm => 5
  | .vmem => 6
  | .smem => 0
  | _ => 0

abbrev bufTy : (tb : Table) → Fin (tcTables nBuf tb) → BufTy
  | .hbm, ⟨0, _⟩ => ⟨S512x8, .f32⟩
  | .hbm, ⟨1, _⟩ => ⟨S1x512x10x16x8, .f32⟩
  | .hbm, ⟨2, _⟩ => ⟨S512x10x16x8, .f32⟩
  | .hbm, ⟨3, _⟩ => ⟨S10x16, .f32⟩
  | .hbm, ⟨4, _⟩ => ⟨S1x1x10x16x1, .f32⟩
  | .local _ .vmem, ⟨0, _⟩ => ⟨S64x10x16x8, .f32⟩
  | .local _ .vmem, ⟨1, _⟩ => ⟨S64x10x16x8, .f32⟩
  | .local _ .vmem, ⟨2, _⟩ => ⟨S64x8, .f32⟩
  | .local _ .vmem, ⟨3, _⟩ => ⟨S64x8, .f32⟩
  | .local _ .vmem, ⟨4, _⟩ => ⟨S10x16, .f32⟩
  | .local _ .vmem, ⟨5, _⟩ => ⟨S10x16, .f32⟩
  | _, _ => ⟨S512x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v17 : BitVec 1 := Scalar.cmpi .eq arg0 c7_i32
  let v18 : BitVec 32 := Scalar.extui v17
  let c0_i32_11 : BitVec 32 := 0#32
  let v19 : BitVec 1 := Scalar.cmpi .ne v18 c0_i32_11
  v19

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x10x16x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1x512x10x16x8_S512x10x16x8 : S1x512x10x16x8.ShapeCasts S512x10x16x8
  inb_S10x16_S10x16_0_0 : ∀ a, (![0, 0] : Fin 2 → Nat) a + S10x16.size a ≤ S10x16.size a
  h_S10x16 : 0 < S10x16.numel
  shapeCasts_S10x16_S10x16 : S10x16.ShapeCasts S10x16
  inb_S64x10x16x8_S64x10x16x8_0_0_0_0 : ∀ a, (![0, 0, 0, 0] : Fin 4 → Nat) a + S64x10x16x8.size a ≤ S64x10x16x8.size a
  h_S64x10x16x8 : 0 < S64x10x16x8.numel
  shapeCasts_S64x10x16x8_S64x10x16x8 : S64x10x16x8.ShapeCasts S64x10x16x8
  inb_S64x8_S64x8_0_0 : ∀ a, (![0, 0] : Fin 2 → Nat) a + S64x8.size a ≤ S64x8.size a
  h_S64x8 : 0 < S64x8.numel
  shapeCasts_S64x8_S64x1x1x8 : S64x8.ShapeCasts S64x1x1x8
  shapeCasts_S64x1x1x8_S64x1x1x8 : S64x1x1x8.ShapeCasts S64x1x1x8
  broadcasts_S64x1x1x8_S64x10x16x8 : S64x1x1x8.Broadcasts S64x10x16x8
  reduces_S64x10x16x8_S64x10x16 : S64x10x16x8.Reduces [3] S64x10x16
  reduces_S64x10x16_S10x16 : S64x10x16.Reduces [0] S10x16
  shapeCasts_S10x16_S1x1x10x16x1 : S10x16.ShapeCasts S1x1x10x16x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x10x16x8.size a ≤ S512x10x16x8.size a
  hwx0_0 : ∀ i : grid0.Coords, EltTy.bits .f32 = 32 ∨ (Rect.block (s := S512x10x16x8) S64x10x16x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8.size a ≤ S512x8.size a
  hwx0_1 : ∀ i : grid0.Coords, EltTy.bits .f32 = 32 ∨ (Rect.block (s := S512x8) S64x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x16.size a ≤ S10x16.size a
  hwx0_2 : ∀ i : grid0.Coords, EltTy.bits .f32 = 32 ∨ (Rect.block (s := S10x16) S10x16.size (cc0_transform_2 i) (hinb0_2 i)).WholeWords (EltTy.packing .f32)

variable [Facts₀]

abbrev win0_0 : Pipeline.Window sig grid0 :=
  Pipeline.Window.ofSpec (Memref.whole main_v0) S64x10x16x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S64x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10x16.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S512x8 : Shape := ⟨2, ![512, 8]⟩
abbrev S1x512x10x16x8 : Shape := ⟨5, ![1, 512, 10, 16, 8]⟩
abbrev S1x512x8x1 : Shape := ⟨4, ![1, 512, 8, 1]⟩
abbrev S1x512x1x8x1 : Shape := ⟨5, ![1, 512, 1, 8, 1]⟩
abbrev S1x512x10x8x1 : Shape := ⟨5, ![1, 512, 10, 8, 1]⟩
abbrev S512x10x16x8 : Shape := ⟨4, ![512, 10, 16, 8]⟩
abbrev S512x10x8x1 : Shape := ⟨4, ![512, 10, 8, 1]⟩
abbrev S512x10x16x1 : Shape := ⟨4, ![512, 10, 16, 1]⟩
abbrev S1x512x10x16x1 : Shape := ⟨5, ![1, 512, 10, 16, 1]⟩
abbrev S_ : Shape := ⟨0, ![]⟩
abbrev S1x512x10x1x1 : Shape := ⟨5, ![1, 512, 10, 1, 1]⟩
abbrev S1x512x10x1x16 : Shape := ⟨5, ![1, 512, 10, 1, 16]⟩
abbrev S512x10x1x1 : Shape := ⟨4, ![512, 10, 1, 1]⟩
abbrev S512x10x1x16 : Shape := ⟨4, ![512, 10, 1, 16]⟩
abbrev S1x10x1x16 : Shape := ⟨4, ![1, 10, 1, 16]⟩
abbrev S1x1x10x1x16 : Shape := ⟨5, ![1, 1, 10, 1, 16]⟩
abbrev S1x1x10x16x1 : Shape := ⟨5, ![1, 1, 10, 16, 1]⟩
abbrev S1x1x10x16 : Shape := ⟨4, ![1, 1, 10, 16]⟩

abbrev nBuf : Space → Nat
  | .hbm => 37
  | .vmem => 0
  | .smem => 0
  | _ => 0

abbrev bufTy : (tb : Table) → Fin (tcTables nBuf tb) → BufTy
  | .hbm, ⟨0, _⟩ => ⟨S512x8, .f32⟩
  | .hbm, ⟨1, _⟩ => ⟨S1x512x10x16x8, .f32⟩
  | .hbm, ⟨2, _⟩ => ⟨S1x512x8x1, .f32⟩
  | .hbm, ⟨3, _⟩ => ⟨S1x512x1x8x1, .f32⟩
  | .hbm, ⟨4, _⟩ => ⟨S1x512x10x8x1, .f32⟩
  | .hbm, ⟨5, _⟩ => ⟨S512x10x16x8, .f32⟩
  | .hbm, ⟨6, _⟩ => ⟨S512x10x8x1, .f32⟩
  | .hbm, ⟨7, _⟩ => ⟨S512x10x16x1, .f32⟩
  | .hbm, ⟨8, _⟩ => ⟨S1x512x10x16x1, .f32⟩
  | .hbm, ⟨9, _⟩ => ⟨S_, .f32⟩
  | .hbm, ⟨10, _⟩ => ⟨S1x512x10x1x1, .f32⟩
  | .hbm, ⟨11, _⟩ => ⟨S1x512x10x1x16, .f32⟩
  | .hbm, ⟨12, _⟩ => ⟨S512x10x1x1, .f32⟩
  | .hbm, ⟨13, _⟩ => ⟨S512x10x1x16, .f32⟩
  | .hbm, ⟨14, _⟩ => ⟨S512x10x1x16, .f32⟩
  | .hbm, ⟨15, _⟩ => ⟨S1x512x10x1x16, .f32⟩
  | .hbm, ⟨16, _⟩ => ⟨S_, .f32⟩
  | .hbm, ⟨17, _⟩ => ⟨S1x10x1x16, .f32⟩
  | .hbm, ⟨18, _⟩ => ⟨S1x1x10x1x16, .f32⟩
  | .hbm, ⟨19, _⟩ => ⟨S1x1x10x16x1, .f32⟩
  | .hbm, ⟨20, _⟩ => ⟨S1x1x10x16x1, .f32⟩
  | .hbm, ⟨21, _⟩ => ⟨S_, .f32⟩
  | .hbm, ⟨22, _⟩ => ⟨S1x1x10x16, .f32⟩
  | .hbm, ⟨23, _⟩ => ⟨S1x1x10x16x1, .f32⟩
  | .hbm, ⟨24, _⟩ => ⟨S_, .f32⟩
  | .hbm, ⟨25, _⟩ => ⟨S1x1x10x16x1, .f32⟩
  | .hbm, ⟨26, _⟩ => ⟨S1x1x10x16x1, .f32⟩
  | .hbm, ⟨27, _⟩ => ⟨S1x1x10x16x1, .f32⟩
  | .hbm, ⟨28, _⟩ => ⟨S_, .f32⟩
  | .hbm, ⟨29, _⟩ => ⟨S1x1x10x16x1, .f32⟩
  | .hbm, ⟨30, _⟩ => ⟨S1x1x10x16x1, .f32⟩
  | .hbm, ⟨31, _⟩ => ⟨S1x1x10x16x1, .f32⟩
  | .hbm, ⟨32, _⟩ => ⟨S_, .f32⟩
  | .hbm, ⟨33, _⟩ => ⟨S1x1x10x16x1, .f32⟩
  | .hbm, ⟨34, _⟩ => ⟨S1x1x10x16x1, .f32⟩
  | .hbm, ⟨35, _⟩ => ⟨S1x1x10x16x1, .f32⟩
  | .hbm, ⟨36, _⟩ => ⟨S1x1x10x16x1, .f32⟩
  | _, _ => ⟨S512x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]

class Facts₀ : Prop where
  shapeCasts_S512x8_S1x512x8x1 : S512x8.ShapeCasts S1x512x8x1
  bcast_S1x512x8x1_S1x512x1x8x1_0_1_3_4 : S1x512x8x1.BroadcastsInDim S1x512x1x8x1 (![0, 1, 3, 4] : Fin 4 → Fin S1x512x1x8x1.rank)
  bcast_S1x512x1x8x1_S1x512x10x8x1_0_1_2_3_4 : S1x512x1x8x1.BroadcastsInDim S1x512x10x8x1 (![0, 1, 2, 3, 4] : Fin 5 → Fin S1x512x10x8x1.rank)
  shapeCasts_S1x512x10x16x8_S512x10x16x8 : S1x512x10x16x8.ShapeCasts S512x10x16x8
  shapeCasts_S1x512x10x8x1_S512x10x8x1 : S1x512x10x8x1.ShapeCasts S512x10x8x1
  bcast_S512x10x16x1_S1x512x10x16x1_1_2_3_4 : S512x10x16x1.BroadcastsInDim S1x512x10x16x1 (![1, 2, 3, 4] : Fin 4 → Fin S1x512x10x16x1.rank)
  bcast_S_S1x512x10x1x1 : S_.BroadcastsInDim S1x512x10x1x1 (![] : Fin 0 → Fin S1x512x10x1x1.rank)
  transposes_S1x512x10x16x1_S1x512x10x1x16_0_1_2_4_3 : S1x512x10x16x1.Transposes [0, 1, 2, 4, 3] S1x512x10x1x16
  shapeCasts_S1x512x10x1x1_S512x10x1x1 : S1x512x10x1x1.ShapeCasts S512x10x1x1
  shapeCasts_S1x512x10x1x16_S512x10x1x16 : S1x512x10x1x16.ShapeCasts S512x10x1x16
  bcast_S512x10x1x16_S1x512x10x1x16_1_2_3_4 : S512x10x1x16.BroadcastsInDim S1x512x10x1x16 (![1, 2, 3, 4] : Fin 4 → Fin S1x512x10x1x16.rank)
  reducesTo_S1x512x10x1x16_S1x10x1x16_d1 : S1x512x10x1x16.ReducesTo [1] S1x10x1x16
  h_S_ : 0 < S_.numel
  bcast_S1x10x1x16_S1x1x10x1x16_0_2_3_4 : S1x10x1x16.BroadcastsInDim S1x1x10x1x16 (![0, 2, 3, 4] : Fin 4 → Fin S1x1x10x1x16.rank)
  transposes_S1x1x10x1x16_S1x1x10x16x1_0_1_2_4_3 : S1x1x10x1x16.Transposes [0, 1, 2, 4, 3] S1x1x10x16x1
  reducesTo_S1x1x10x16x1_S1x1x10x16_d4 : S1x1x10x16x1.ReducesTo [4] S1x1x10x16
  bcast_S1x1x10x16_S1x1x10x16x1_0_1_2_3 : S1x1x10x16.BroadcastsInDim S1x1x10x16x1 (![0, 1, 2, 3] : Fin 4 → Fin S1x1x10x16x1.rank)
  bcast_S_S1x1x10x16x1 : S_.BroadcastsInDim S1x1x10x16x1 (![] : Fin 0 → Fin S1x1x10x16x1.rank)
  dot_S512x10x16x8_S512x10x8x1_S512x10x16x1_3_2_2_3_01_01_wf : DotDims.WF S512x10x16x8 S512x10x8x1 S512x10x16x1 [3] [2] [2] [3] [0, 1] [0, 1]
  dot_S512x10x1x1_S512x10x1x16_S512x10x1x16_3_2_2_3_01_01_wf : DotDims.WF S512x10x1x1 S512x10x1x16 S512x10x1x16 [3] [2] [2] [3] [0, 1] [0, 1]

variable [Facts₀]

def dot_S512x10x16x8_S512x10x8x1_S512x10x16x1_3_2_2_3_01_01 : DotDims S512x10x16x8 S512x10x8x1 S512x10x16x1 where
  lhsContracting := [3]
  rhsContracting := [2]
  lhsNonContracting := [2]
  rhsNonContracting := [3]
  lhsBatch := [0, 1]
  rhsBatch := [0, 1]
  wf := dot_S512x10x16x8_S512x10x8x1_S512x10x16x1_3_2_2_3_01_01_wf
def dot_S512x10x1x1_S512x10x1x16_S512x10x1x16_3_2_2_3_01_01 : DotDims S512x10x1x1 S512x10x1x16 S512x10x1x16 where
  lhsContracting := [3]
  rhsContracting := [2]
  lhsNonContracting := [2]
  rhsNonContracting := [3]
  lhsBatch := [0, 1]
  rhsBatch := [0, 1]
  wf := dot_S512x10x1x1_S512x10x1x16_S512x10x1x16_3_2_2_3_01_01_wf

class Facts : Prop extends Facts₀ where

variable [Facts]
-- ==== Proof.Pieces.lean ====
/-
  What one run of the kernel body leaves behind, as values.

  The body keeps a [10, 16] accumulator between grid points.  At the first point it clears the accumulator and
  then adds the tile's contribution to what it reads back (so it leaves `update tile 0`); at every later point it
  adds the tile's contribution to what the point before left (`update tile acc`); and at the last point, after that
  update, it stores into the output block the squashing of the scaled accumulator it has just written
  (`finish (update tile acc)`).  Here `update` and `finish` are the body's own pure terms `k0_pay2` and `k0_pay3`,
  and `k0_pay1` is the zero block.  Each statement holds at any float instance: every store covers its whole
  buffer, so what is read back afterwards is exactly the stored term.
-/
import proofs.«157565_j69114613730131_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The first point: the accumulator is cleared, read back, and the tile's contribution added. -/
theorem acc_first (c : Dev nD) (i : grid0.Coords) (arg1 : Memref sig .tc .vmem S64x10x16x8 .f32) (harg1 : arg1.IsWhole) (arg2 : Memref sig .tc .vmem S64x8 .f32) (harg2 : arg2.IsWhole) (arg3 : Memref sig .tc .vmem S10x16 .f32) (harg3 : arg3.IsWhole) (arg4 : Memref sig .tc .vmem S10x16 .f32) (harg4 : arg4.IsWhole) (hc0 : cond0_0 i) (hc1 : ¬cond0_1 i)
    (x0 : Vec F S64x10x16x8 .f32) (x1 : Vec F S64x8 .f32) :
    sout0_A_0 c i arg1 harg1 arg2 harg2 arg3 harg3 arg4 harg4 hc0 hc1 x0 x1 = k0_pay2 x0 x1 (k0_pay1 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S10x16) hz2]
  simp only [View.readAt_eq_ld, harg1.read_unread, harg2.read_unread, harg4.read_unread,
    View.ld_unit_zero (S := S64x10x16x8) hz4, View.ld_unit_zero (S := S64x8) hz2, View.ld_unit_zero (S := S10x16) hz2,
    View.readCov_unit_zero (S := S10x16) _ hz2]

/-- A middle point: the tile's contribution is added to what the point before left. -/
theorem acc_middle (c : Dev nD) (i : grid0.Coords) (arg1 : Memref sig .tc .vmem S64x10x16x8 .f32) (harg1 : arg1.IsWhole) (arg2 : Memref sig .tc .vmem S64x8 .f32) (harg2 : arg2.IsWhole) (arg3 : Memref sig .tc .vmem S10x16 .f32) (harg3 : arg3.IsWhole) (arg4 : Memref sig .tc .vmem S10x16 .f32) (harg4 : arg4.IsWhole) (hc0 : ¬cond0_0 i) (hc1 : ¬cond0_1 i)
    (x0 : Vec F S64x10x16x8 .f32) (x1 : Vec F S64x8 .f32) (xs0 : Vec F S10x16 .f32) :
    sout0_B_0 c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero hz2]
  simp only [View.readAt_eq_ld, harg1.read_unread, harg2.read_unread, harg4.read_unread,
    View.ld_unit_zero (S := S64x10x16x8) hz4, View.ld_unit_zero (S := S64x8) hz2, View.ld_unit_zero (S := S10x16) hz2,
    View.readCov_unit_zero (S := S10x16) _ hz2]

/-- The last point updates the accumulator like a middle point, -/
theorem acc_last (c : Dev nD) (i : grid0.Coords) (arg1 : Memref sig .tc .vmem S64x10x16x8 .f32) (harg1 : arg1.IsWhole) (arg2 : Memref sig .tc .vmem S64x8 .f32) (harg2 : arg2.IsWhole) (arg3 : Memref sig .tc .vmem S10x16 .f32) (harg3 : arg3.IsWhole) (arg4 : Memref sig .tc .vmem S10x16 .f32) (harg4 : arg4.IsWhole) (hc0 : ¬cond0_0 i) (hc1 : cond0_1 i)
    (x0 : Vec F S64x10x16x8 .f32) (x1 : Vec F S64x8 .f32) (xs0 : Vec F S10x16 .f32) :
    sout0_C_0 c i arg1 harg1 arg2 harg2 arg3 harg3 arg4 harg4 hc0 hc1 x0 x1 xs0 = k0_pay2 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hz2]
  simp only [View.readAt_eq_ld, harg1.read_unread, harg2.read_unread, harg4.read_unread,
    View.ld_unit_zero (S := S64x10x16x8) hz4, View.ld_unit_zero (S := S64x8) hz2, View.ld_unit_zero (S := S10x16) hz2,
    View.readCov_unit_zero (S := S10x16) _ hz2]

/-- and stores into the output block the finishing map of the accumulator it has just written. -/
theorem out_last (c : Dev nD) (i : grid0.Coords) (arg1 : Memref sig .tc .vmem S64x10x16x8 .f32) (harg1 : arg1.IsWhole) (arg2 : Memref sig .tc .vmem S64x8 .f32) (harg2 : arg2.IsWhole) (arg3 : Memref sig .tc .vmem S10x16 .f32) (harg3 : arg3.IsWhole) (arg4 : Memref sig .tc .vmem S10x16 .f32) (harg4 : arg4.IsWhole) (hc0 : ¬cond0_0 i) (hc1 : cond0_1 i)
    (x0 : Vec F S64x10x16x8 .f32) (x1 : Vec F S64x8 .f32) (xs0 : Vec F S10x16 .f32) :
    out0_C_2 c i arg1 harg1 arg2 harg2 arg3 harg3 arg4 harg4 hc0 hc1 x0 x1 xs0 = k0_pay3 (k0_pay2 x0 x1 xs0) := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz2]
  simp only [View.readAt_eq_ld, harg1.read_unread, harg2.read_unread, harg4.read_unread,
    View.ld_unit_zero (S := S64x10x16x8) hz4, View.ld_unit_zero (S := S64x8) hz2, View.ld_unit_zero (S := S10x16) hz2,
    View.readCov_unit_zero (S := S10x16) _ hz2]

end Cert.KernelIdeal.Pieces

end
-- ==== Proof.Capsule.lean ====
/-
  The mathematics of the routing step, over the extended reals, independent of either program.

  Every input capsule `n` (512 of them) casts a vote for every output capsule `o` (10) in every output
  coordinate `d` (16): the inner product over the 8 input coordinates of the weight row `W[0, n, o, d, ·]`
  with the input `x[n, ·]`.  With the routing logits never updated every coupling coefficient is the uniform
  weight `1/512`, so output `(o, d)` is the weighted mean `s` of the 512 votes, passed through the
  coordinatewise squashing map `s ↦ (s² / (1 + s²)) · (s / (√(s² + ε) + ε))`.

  Two laws relate the two ways of computing `s`:
  * the 512 capsules split into 8 consecutive tiles of 64, and a sum over all capsules is the sum over the
    tiles of the sums inside each tile (`sum_tiles`);
  * a weight that is nonnegative and not `⊤` may be applied to a sum or to each of its terms
    (`sum_mul_weight`): on the extended reals multiplication by such a factor distributes over EVERY sum,
    infinite terms included, so no finiteness of the votes is needed.
-/
import Idealize.ShloMosaic.PureOps.Ideal
import Idealize.ShloMosaic.PureOps.Ideal.Laws
import Idealize.ShloMosaic.Lib.ValueIdx
import Mathlib.Data.EReal.Operations
import Mathlib.Algebra.BigOperators.Fin
import Mathlib.Logic.Equiv.Fin.Basic

noncomputable section

namespace Cert.Capsule

open Idealize.ShloMosaic

/-! ## The constants -/

/-- The uniform coupling coefficient: the pattern of `1/512`, an exact binary fraction. -/
def weight : EReal := Ideal.ofBits .f32 0x3B000000#32
/-- The stabiliser `ε` of the squashing map (the single-precision number nearest `10⁻⁷`; both programs
    spell the same pattern, so its value is never needed). -/
def eps : EReal := Ideal.ofBits .f32 0x33D6BF95#32
/-- The pattern of `1`. -/
def one : EReal := Ideal.ofBits .f32 0x3F800000#32

theorem weight_eq : weight = ((1 / 512 : ℝ) : EReal) := by
  unfold weight
  simp [Ideal.ofBits, Ideal.ieee, -EReal.coe_mul]; norm_num

theorem weight_nonneg : 0 ≤ weight := by
  rw [weight_eq]; exact EReal.coe_nonneg.mpr (by norm_num)

theorem weight_ne_top : weight ≠ ⊤ := by
  rw [weight_eq]; exact EReal.coe_ne_top _

/-! ## The squashing map -/

/-- `s ↦ (s² / (1 + s²)) · (s / (√(s² + ε) + ε))`, with the quotient and the root of the ideal instance. -/
def squash (s : EReal) : EReal :=
  Ideal.div (s * s) (one + s * s) * Ideal.div s (Ideal.sqrt (s * s + eps) + eps)

/-! ## Votes, tiles, and the mean -/

/-- Capsule `r` of tile `j` (tiles of 64 consecutive capsules; total in `j`, reduced mod 512, which changes
    nothing for the 8 real tiles). -/
def row (j : ℕ) (r : Fin 64) : Fin 512 := ⟨(64 * j + r.val) % 512, Nat.mod_lt _ (by decide)⟩

theorem row_val {j : ℕ} (hj : j < 8) (r : Fin 64) : (row j r).val = 64 * j + r.val := by
  have := r.isLt
  show (64 * j + r.val) % 512 = _
  omega

/-- A sum over all 512 capsules is the sum over the 8 tiles of the sums over each tile's 64 capsules. -/
theorem sum_tiles (a : Fin 512 → EReal) :
    ∑ j ∈ Finset.range 8, ∑ r : Fin 64, a (row j r) = ∑ n : Fin 512, a n := by
  rw [Finset.sum_range, ← Fintype.sum_prod_type']
  refine Fintype.sum_equiv (finProdFinEquiv (m := 8) (n := 64)) _ _ fun p => congrArg a (Fin.ext ?_)
  rw [row_val p.1.isLt]
  show 64 * p.1.val + p.2.val = p.2.val + 64 * p.1.val
  omega

/-- A factor that is nonnegative and not `⊤` may multiply a sum of extended reals or each of its terms. -/
theorem sum_mul_weight {ι : Type} (s : Finset ι) (a : ι → EReal) {c : EReal} (h0 : 0 ≤ c) (ht : c ≠ ⊤) :
    (∑ i ∈ s, a i) * c = ∑ i ∈ s, a i * c := by
  classical
  induction s using Finset.induction_on with
  | empty => simp
  | insert i s hi ih =>
    rw [Finset.sum_insert hi, Finset.sum_insert hi, EReal.right_distrib_of_nonneg_of_ne_top h0 ht, ih]

/-- The vote of input capsule `n` for output `(o, d)`. -/
def vote (W : (⟨5, ![1, 512, 10, 16, 8]⟩ : Shape).Idx → EReal) (x : (⟨2, ![512, 8]⟩ : Shape).Idx → EReal)
    (n : Fin 512) (o : Fin 10) (d : Fin 16) : EReal :=
  ∑ k : Fin 8, W (ValueIdx.ix5 (0 : Fin 1) n o d k) * x (ValueIdx.ix2 n k)

/-- The weighted mean of the votes for output `(o, d)`. -/
def mean (W : (⟨5, ![1, 512, 10, 16, 8]⟩ : Shape).Idx → EReal) (x : (⟨2, ![512, 8]⟩ : Shape).Idx → EReal)
    (o : Fin 10) (d : Fin 16) : EReal :=
  (∑ n : Fin 512, vote W x n o d) * weight

/-- The routed output capsules, as the array of shape [1, 1, 10, 16, 1] both programs return. -/
def routed (W : (⟨5, ![1, 512, 10, 16, 8]⟩ : Shape).Idx → EReal) (x : (⟨2, ![512, 8]⟩ : Shape).Idx → EReal) :
    (⟨5, ![1, 1, 10, 16, 1]⟩ : Shape).Idx → EReal :=
  fun i => squash (mean W x ⟨(i 2).val, (i 2).isLt⟩ ⟨(i 3).val, (i 3).isLt⟩)

/-- The mean computed tile by tile, the weight applied last: the running sum over the 8 tiles, scaled. -/
theorem mean_eq_tiles (W : (⟨5, ![1, 512, 10, 16, 8]⟩ : Shape).Idx → EReal) (x : (⟨2, ![512, 8]⟩ : Shape).Idx → EReal)
    (o : Fin 10) (d : Fin 16) :
    (∑ j ∈ Finset.range 8, ∑ r : Fin 64, vote W x (row j r) o d) * weight = mean W x o d := by
  unfold mean
  rw [sum_tiles fun n => vote W x n o d]

/-- The mean computed with the weight applied to every vote first, summed from zero. -/
theorem mean_eq_weighted (W : (⟨5, ![1, 512, 10, 16, 8]⟩ : Shape).Idx → EReal) (x : (⟨2, ![512, 8]⟩ : Shape).Idx → EReal)
    (o : Fin 10) (d : Fin 16) :
    0 + ∑ n : Fin 512, weight * vote W x n o d = mean W x o d := by
  unfold mean
  rw [zero_add, sum_mul_weight _ _ weight_nonneg weight_ne_top]
  exact Finset.sum_congr rfl fun n _ => mul_comm _ _

end Cert.Capsule

end
-- ==== Proof.Payload.lean ====
/-
  The kernel body's arithmetic, read at one output `(o, d)`, at the ideal instance.

  * the zero block is `0` there;
  * the update adds to the accumulator the tile's contribution: the sum over the tile's 64 capsules `r` of the
    inner product over the 8 input coordinates `k` of the weight block's row `(r, o, d, ·)` with the input block's
    row `(r, ·)` (a lane sum over the last axis, then a sum over the first; the input rows are first laid along the
    two output axes, which changes no entry);
  * the finishing map is the squashing of the accumulator scaled by the weight, entry by entry.
-/
import proofs.«157565_j69114613730131_1_alg».proof.Proof.Gen.KernelIdeal.Skeleton
import proofs.«157565_j69114613730131_1_alg».proof.Proof.Capsule
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx
open Cert.KernelIdeal Cert.KernelIdeal.Gen

/-- The input rows laid along the two output axes: entry (r, o, d, k) is entry (r, k). -/
theorem spread_at (x1 : Vec Ideal S64x8 .f32) (h1 : S64x8.ShapeCasts S64x1x1x8) (h2 : S64x1x1x8.Broadcasts S64x10x16x8)
    (r : Fin 64) (o : Fin 10) (d : Fin 16) (k : Fin 8) :
    broadcastTo S64x10x16x8 (shapeCast S64x1x1x8 x1 h1) h2 (ix4 r o d k) = x1 (ix2 r k) := by
  refine (broadcastTo_apply _ h2 (ix4 r o d k) (ix4 r (0 : Fin 1) (0 : Fin 1) k) (fun a => ?_)).trans
    (shapeCast_apply x1 h1 (ix4 r (0 : Fin 1) (0 : Fin 1) k) (ix2 r k) ?_)
  · match a with
    | ⟨0, _⟩ => show r.val = if (64 : Nat) = 1 then 0 else r.val; rw [if_neg (by decide)]
    | ⟨1, _⟩ => show 0 = if (1 : Nat) = 1 then 0 else o.val; rw [if_pos rfl]
    | ⟨2, _⟩ => show 0 = if (1 : Nat) = 1 then 0 else d.val; rw [if_pos rfl]
    | ⟨3, _⟩ => show k.val = if (8 : Nat) = 1 then 0 else k.val; rw [if_neg (by decide)]
  · rw [Shape.rowMajor_val_two, Shape.rowMajor_val_four]
    show r.val * 8 + k.val = ((r.val * 1 + 0) * 1 + 0) * 8 + k.val
    omega

/-- Output `(o, d)` with the capsule `r` and then the input coordinate `k` put back: the index (r, o, d, k). -/
theorem lift_lift (h : S64x10x16x8.Reduces [3] S64x10x16) (h' : S64x10x16.Reduces [0] S10x16)
    (o : Fin 10) (d : Fin 16) (r : Fin 64) (k : Fin 8) :
    h.lift (h'.lift (ix2 o d) r) k = ix4 r o d k :=
  funext fun a => Fin.ext (by match a with | ⟨0, _⟩ => rfl | ⟨1, _⟩ => rfl | ⟨2, _⟩ => rfl | ⟨3, _⟩ => rfl)

/-- The zero block. -/
theorem zero_at (o : Fin 10) (d : Fin 16) : k0_pay1 (F := Ideal) (ix2 o d) = 0 := by
  simp only [k0_pay1, shapeCast_self]
  exact Ideal.ofBits_zero_f32

/-- The update at `(o, d)`: the accumulator there plus the tile's contribution. -/
theorem update_at (x0 : Vec Ideal S64x10x16x8 .f32) (x1 : Vec Ideal S64x8 .f32) (acc : Vec Ideal S10x16 .f32)
    (o : Fin 10) (d : Fin 16) :
    k0_pay2 (F := Ideal) x0 x1 acc (ix2 o d)
      = acc (ix2 o d) + ∑ r : Fin 64, ∑ k : Fin 8, x0 (ix4 r o d k) * x1 (ix2 r k) := by
  simp only [k0_pay2, shapeCast_self]
  rw [addf_apply]
  refine congrArg (acc (ix2 o d) + ·) ?_
  refine (Ideal.multiReduction_add_single _ 0x00000000#32 _ (.inl rfl) rfl (ix2 o d)).trans ?_
  refine Finset.sum_congr rfl fun (r : Fin 64) _ => ?_
  refine (Ideal.multiReduction_add_single _ 0x00000000#32 _ (.inl rfl) rfl _).trans ?_
  refine Finset.sum_congr rfl fun (k : Fin 8) _ => ?_
  rw [lift_lift, mulf_apply, spread_at]

/-- The finishing map at `(o, d)`: the squashing of the scaled accumulator there. -/
theorem finish_at (v : Vec Ideal S10x16 .f32) (o : Fin 10) (d : Fin 16) :
    k0_pay3 (F := Ideal) v (ix2 o d) = Capsule.squash (v (ix2 o d) * Capsule.weight) := by
  simp only [k0_pay3]
  rfl

end Cert.KernelIdeal.Payload

end
-- ==== Proof.KernelRouted.lean ====
/-
  The idealized kernel computes the routed capsules.

  The pipeline feeds the body, at grid point `t`, the weight rows and the input rows of tile `t` (capsules
  `64 t … 64 t + 63`): the weight block is read off `W` with its leading unit axis dropped, the input block off
  `x`.  By induction on the point, the accumulator the body carries holds, after point `t`, at `(o, d)`, the sum
  over the tiles `0 … t` of the votes of their capsules for `(o, d)`.  At the last point the body stores the
  squashing of the scaled accumulator into the output block, which is the whole [10, 16] result and is written back
  once, there; the reshape after the call lays it out as [1, 1, 10, 16, 1].  By `Capsule.mean_eq_tiles` the scaled
  sum over the 8 tiles is the weighted mean.
-/
import proofs.«157565_j69114613730131_1_alg».proof.Proof.Gen.KernelIdeal.Frame
import proofs.«157565_j69114613730131_1_alg».proof.Proof.Pieces
import proofs.«157565_j69114613730131_1_alg».proof.Proof.Payload
import proofs.«157565_j69114613730131_1_alg».proof.Proof.Capsule
import Idealize.ShloMosaic.Lib.Pipeline.Value
import Idealize.ShloMosaic.Lib.StableHlo.Run
import Idealize.ShloMosaic.Lib.Tactic

noncomputable section

namespace Cert.KernelIdeal.Routed

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The arguments and the blocks, at their literal types -/

/-- The weights `W` and the inputs `x` as launched. -/
abbrev Wt (c : Dev nD) : Vec Ideal S1x512x10x16x8 .f32 := m ((c : Thread nD τ).loc main_arg1)
abbrev Xin (c : Dev nD) : Vec Ideal S512x8 .f32 := m ((c : Thread nD τ).loc main_arg0)
/-- The weight block and the input block the body is handed at point `t`. -/
abbrev wblk (c : Dev nD) (t : Fin cfg0.N) : Vec Ideal S64x10x16x8 .f32 := iblk m c 0 t
abbrev xblk (c : Dev nD) (t : Fin cfg0.N) : Vec Ideal S64x8 .f32 := iblk m c 1 t

/-- Block `t` of either input window starts at row `64 t` and at zero along every other axis. -/
theorem widx : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem xidx : ∀ t : Fin cfg0.N, win0_1.index t 0 = t.val ∧ win0_1.index t 1 = 0 :=
  (by decide +kernel : ∀ t : Fin grid0.N, win0_1.index t 0 = t.val ∧ win0_1.index t 1 = 0)

/-- The reshape before the call drops `W`'s leading unit axis. -/
theorem warr_eq (c : Dev nD) (h : S1x512x10x16x8.ShapeCasts S512x10x16x8) :
    (V m c main_v0 : S512x10x16x8.Idx → EReal) = shapeCast S512x10x16x8 (Wt m c) h := by
  show StableHlo.after hostOps0 (fun b => m (c, b)) (Proc.devRef .tc main_v0) = _
  after_results
  rfl

theorem warr_at (c : Dev nD) (n : Fin 512) (o : Fin 10) (d : Fin 16) (k : Fin 8) :
    (V m c main_v0 : S512x10x16x8.Idx → EReal) (ix4 n o d k) = Wt m c (ix5 (0 : Fin 1) n o d k) := by
  rw [warr_eq m c Facts₀.shapeCasts_S1x512x10x16x8_S512x10x16x8]
  refine shapeCast_apply _ _ _ _ ?_
  rw [Shape.rowMajor_val_five, Shape.rowMajor_val_four]
  show (((0 * 512 + n.val) * 10 + o.val) * 16 + d.val) * 8 + k.val = ((n.val * 10 + o.val) * 16 + d.val) * 8 + k.val
  omega

/-- The weight block at point `t`: rows `64 t + r` of `W`. -/
theorem wblk_at (c : Dev nD) (t : Fin cfg0.N) (r : Fin 64) (o : Fin 10) (d : Fin 16) (k : Fin 8) :
    wblk m c t (ix4 r o d k) = Wt m c (ix5 (0 : Fin 1) (Capsule.row t.val r) o d k) := by
  have ht : t.val < 8 := lt_of_lt_of_eq t.isLt N_0
  obtain ⟨i0, i1, i2, i3⟩ := widx t
  show iblk m c 0 t (ix4 r o d k) = _
  unfold iblk
  rw [View.read_apply]
  refine Eq.trans (congrArg (V m c main_v0 : S512x10x16x8.Idx → EReal) (funext fun a => Fin.ext ?_))
    (warr_at m c (Capsule.row t.val r) o d k)
  match a with
  | ⟨0, _⟩ => show win0_0.index t 0 * 64 + 1 * r.val = (Capsule.row t.val r).val; rw [i0, Capsule.row_val ht]; omega
  | ⟨1, _⟩ => show win0_0.index t 1 * 10 + 1 * o.val = o.val; rw [i1]; omega
  | ⟨2, _⟩ => show win0_0.index t 2 * 16 + 1 * d.val = d.val; rw [i2]; omega
  | ⟨3, _⟩ => show win0_0.index t 3 * 8 + 1 * k.val = k.val; rw [i3]; omega

/-- The input block at point `t`: rows `64 t + r` of `x`. -/
theorem xblk_at (c : Dev nD) (t : Fin cfg0.N) (r : Fin 64) (k : Fin 8) :
    xblk m c t (ix2 r k) = Xin m c (ix2 (Capsule.row t.val r) k) := by
  have ht : t.val < 8 := lt_of_lt_of_eq t.isLt N_0
  obtain ⟨i0, i1⟩ := xidx t
  show iblk m c 1 t (ix2 r k) = _
  unfold iblk
  rw [View.read_apply]
  refine Eq.trans (congrArg (V m c main_arg0 : S512x8.Idx → EReal) (funext fun a => Fin.ext ?_))
    (congrFun (V_main_arg0 m c) _)
  match a with
  | ⟨0, _⟩ => show win0_1.index t 0 * 64 + 1 * r.val = (Capsule.row t.val r).val; rw [i0, Capsule.row_val ht]; omega
  | ⟨1, _⟩ => show win0_1.index t 1 * 8 + 1 * k.val = k.val; rw [i1]; omega

/-- What tile `t` contributes at `(o, d)`: the votes of its 64 capsules. -/
theorem tile_eq (c : Dev nD) (t : Fin cfg0.N) (o : Fin 10) (d : Fin 16) :
    ∑ r : Fin 64, ∑ k : Fin 8, wblk m c t (ix4 r o d k) * xblk m c t (ix2 r k)
      = ∑ r : Fin 64, Capsule.vote (Wt m c) (Xin m c) (Capsule.row t.val r) o d :=
  Finset.sum_congr rfl fun r _ => Finset.sum_congr rfl fun k _ => by rw [wblk_at, xblk_at]

/-! ## The accumulator, point by point -/

/-- The votes of tiles `0 … n` for `(o, d)`. -/
def upTo (c : Dev nD) (n : ℕ) (o : Fin 10) (d : Fin 16) : EReal :=
  ∑ j ∈ Finset.range (n + 1), ∑ r : Fin 64, Capsule.vote (Wt m c) (Xin m c) (Capsule.row j r) o d

/-- After point `n` the carried accumulator holds, at `(o, d)`, the votes of tiles `0 … n`. -/
theorem acc_eq (c : Dev nD) : ∀ (n : ℕ) (h : n < cfg0.N) (o : Fin 10) (d : Fin 16),
    (outsAt0 m c n h).2 (ix2 o d) = upTo m c n o d
  | 0, h, o, d => by
    let t : Fin cfg0.N := ⟨0, h⟩
    rw [outsAt0_A m c t rfl (by show ¬(0 : ℕ) % 8 = 7; decide)]
    dsimp only
    refine (congrFun (Pieces.acc_first (F := Ideal) c (grid0.coords t) (ms0_0 t) (hs0_0 t) (ms0_1 t) (hs0_1 t) (ms0_2 t) (hs0_2 t) scM0_0 (Memref.isWhole_whole _) _ _ (wblk m c t) (xblk m c t)) (ix2 o d)).trans ?_
    refine (Payload.update_at (wblk m c t) (xblk m c t) _ o d).trans ?_
    rw [Payload.zero_at, zero_add, tile_eq]
    exact (Finset.sum_range_one (fun j => ∑ r : Fin 64, Capsule.vote (Wt m c) (Xin m c) (Capsule.row j r) o d)).symm
  | n + 1, h, o, d => by
    have hN : cfg0.N = 8 := N_0
    let t : Fin cfg0.N := ⟨n + 1, h⟩
    have h0 : ¬t.val % 8 = 0 := by show ¬(n + 1) % 8 = 0; omega
    have step : ∀ prev : Vec Ideal S10x16 .f32, prev (ix2 o d) = upTo m c n o d →
        k0_pay2 (F := Ideal) (wblk m c t) (xblk m c t) prev (ix2 o d) = upTo m c (n + 1) o d := fun prev hp => by
      refine (Payload.update_at (wblk m c t) (xblk m c t) prev o d).trans ?_
      rw [hp, tile_eq]
      exact (Finset.sum_range_succ (fun j => ∑ r : Fin 64, Capsule.vote (Wt m c) (Xin m c) (Capsule.row j r) o d) (n + 1)).symm
    by_cases h1 : t.val % 8 = 7
    · rw [outsAt0_C m c t h0 h1]
      dsimp only
      refine (congrFun (Pieces.acc_last (F := Ideal) c (grid0.coords t) (ms0_0 t) (hs0_0 t) (ms0_1 t) (hs0_1 t) (ms0_2 t) (hs0_2 t) scM0_0 (Memref.isWhole_whole _) _ _ (wblk m c t) (xblk m c t) _) (ix2 o d)).trans ?_
      exact step _ (acc_eq c n _ o d)
    · rw [outsAt0_B m c t h0 h1]
      dsimp only
      refine (congrFun (Pieces.acc_middle (F := Ideal) c (grid0.coords t) (ms0_0 t) (hs0_0 t) (ms0_1 t) (hs0_1 t) (ms0_2 t) (hs0_2 t) scM0_0 (Memref.isWhole_whole _) _ _ (wblk m c t) (xblk m c t) _) (ix2 o d)).trans ?_
      exact step _ (acc_eq c n _ o d)

/-! ## The output block and the result array -/

/-- The [10, 16] array of routed capsules. -/
def out2 (c : Dev nD) : Vec Ideal S10x16 .f32 :=
  fun i => Capsule.squash (Capsule.mean (Wt m c) (Xin m c) ⟨(i 0).val, (i 0).isLt⟩ ⟨(i 1).val, (i 1).isLt⟩)

/-- What the last point stores into the output block. -/
theorem last_eq (c : Dev nD) : (outsAt0 m c t0_7.val t0_7.isLt).1 = out2 m c := by
  have h0 : ¬t0_7.val % 8 = 0 := by decide
  have h1 : t0_7.val % 8 = 7 := by decide
  funext i
  obtain ⟨o, d, rfl⟩ : ∃ (o : Fin 10) (d : Fin 16), i = ix2 o d := ⟨i 0, i 1, eq_ix2 i⟩
  rw [outsAt0_C m c t0_7 h0 h1]
  dsimp only
  refine (congrFun (Pieces.out_last (F := Ideal) c (grid0.coords t0_7) (ms0_0 t0_7) (hs0_0 t0_7) (ms0_1 t0_7) (hs0_1 t0_7)
    (ms0_2 t0_7) (hs0_2 t0_7) scM0_0 (Memref.isWhole_whole _) _ _ (wblk m c t0_7) (xblk m c t0_7) _) (ix2 o d)).trans ?_
  refine (Payload.finish_at _ o d).trans ?_
  refine congrArg Capsule.squash ?_
  refine Eq.trans (congrArg (· * Capsule.weight) ?_) (Capsule.mean_eq_tiles (Wt m c) (Xin m c) o d)
  refine (Payload.update_at (wblk m c t0_7) (xblk m c t0_7) _ o d).trans ?_
  refine (congrArg₂ (· + ·) (acc_eq m c 6 (by rw [show cfg0.N = 8 from N_0]; decide) o d) (tile_eq m c t0_7 o d)).trans ?_
  exact (Finset.sum_range_succ (fun j => ∑ r : Fin 64, Capsule.vote (Wt m c) (Xin m c) (Capsule.row j r) o d) 7).symm

/-- The output window has one block, the whole [10, 16] array: read through it, an array is itself. -/
theorem whole_block (G : Vec Ideal S10x16 .f32) : ((cfg0.win 2).blk t0_7).view.read (Elt Ideal) G = G := by
  funext y
  rw [View.read_apply]
  refine congrArg G (funext fun a => Fin.ext ?_)
  match a with
  | ⟨0, _⟩ => show win0_2.index t0_7 0 * 10 + 1 * (y 0).val = (y 0).val
              rw [show win0_2.index t0_7 0 = 0 from by decide +kernel]; omega
  | ⟨1, _⟩ => show win0_2.index t0_7 1 * 16 + 1 * (y 1).val = (y 1).val
              rw [show win0_2.index t0_7 1 = 0 from by decide +kernel]; omega

/-- The one write-back, after the last point, writes the routed capsules. -/
theorem flushed_eq (c : Dev nD) (t : Fin cfg0.N) (hf : (cfg0.win 2).flush t = true) :
    (dats m 0 c).flushed 2 t = ((cfg0.win 2).blk t).view.read (Elt Ideal) (out2 m c) := by
  have hN : cfg0.N = 8 := N_0
  have h7 : t.val = 7 := by have := (flush0_2 t).mp hf; have := t.isLt; omega
  obtain rfl : t = t0_7 := Fin.ext h7
  rw [whole_block]
  show (cfg0.win 2).cut (grid0.coords t0_7) ((dats m 0 c).after 2 t0_7) = _
  rw [after0_2]
  exact last_eq m c

/-- Every entry of the result lies in that block. -/
theorem mem_block (i : S10x16.Idx) : i ∈ ((cfg0.win 2).blk t0_7).view.set := by
  show i ∈ ((View.whole main_v1).slice (win0_2.rect t0_7)).set
  rw [View.set_slice_whole, Rect.mem_set_unit]
  intro a
  have h0 : (i 0 : Nat) < 10 := (i 0).isLt
  have h1 : (i 1 : Nat) < 16 := (i 1).isLt
  match a with
  | ⟨0, _⟩ =>
    show win0_2.index t0_7 0 * win0_2.size 0 ≤ (i 0 : Nat) ∧ (i 0 : Nat) < win0_2.index t0_7 0 * win0_2.size 0 + win0_2.xsize (grid0.coords t0_7) 0
    rw [show win0_2.index t0_7 0 * win0_2.size 0 = 0 from by decide +kernel, show win0_2.xsize (grid0.coords t0_7) 0 = 10 from by decide +kernel]; omega
  | ⟨1, _⟩ =>
    show win0_2.index t0_7 1 * win0_2.size 1 ≤ (i 1 : Nat) ∧ (i 1 : Nat) < win0_2.index t0_7 1 * win0_2.size 1 + win0_2.xsize (grid0.coords t0_7) 1
    rw [show win0_2.index t0_7 1 * win0_2.size 1 = 0 from by decide +kernel, show win0_2.xsize (grid0.coords t0_7) 1 = 16 from by decide +kernel]; omega

/-- So the call's result array ends holding the routed capsules, as a [10, 16] array. -/
theorem result_arr (c : Dev nD) : (dats m 0 c).arrAt 2 cfg0.N = out2 m c :=
  (dats m 0 c).arrAt_eq_of_cover 2 (out2 m c) (flushed_eq m c) fun i => ⟨t0_7, (flush0_2 t0_7).mpr (by decide), mem_block i⟩

/-- The reshape after the call lays the [10, 16] result out as [1, 1, 10, 16, 1]. -/
theorem tail_eq (c : Dev nD) :
    Pipeline.afterTail₀ cfgs (dats m) 0 (V0 m) [hostOps1] c main_v2 = Capsule.routed (Wt m c) (Xin m c) := by
  unfold Pipeline.afterTail₀
  show StableHlo.after hostOps1 _ (Proc.devRef .tc main_v2) = _
  after_results
  funext i
  have harr : Pipeline.withArrays (cfgs 0).spec c (V0 m c) (fun w => (dats m 0 c).arrAt w (cfgs 0).N) (Proc.tc.devRef main_v1)
      = out2 m c :=
    (Pipeline.withArrays_arr spec0 launch0.win.arr_inj c _ _ 2).trans (result_arr m c)
  show shapeCast S1x1x10x16x1 (Pipeline.withArrays (cfgs 0).spec c (V0 m c) (fun w => (dats m 0 c).arrAt w (cfgs 0).N)
    (Proc.tc.devRef main_v1)) Facts₀.shapeCasts_S10x16_S1x1x10x16x1 i = _
  rw [harr]
  obtain ⟨a, b, o, d, e, rfl⟩ : ∃ (a : Fin 1) (b : Fin 1) (o : Fin 10) (d : Fin 16) (e : Fin 1), i = ix5 a b o d e :=
    ⟨i 0, i 1, i 2, i 3, i 4, eq_ix5 i⟩
  obtain rfl : a = 0 := Subsingleton.elim _ _
  obtain rfl : b = 0 := Subsingleton.elim _ _
  obtain rfl : e = 0 := Subsingleton.elim _ _
  refine (shapeCast_apply (out2 m c) _ (ix5 (0 : Fin 1) (0 : Fin 1) o d (0 : Fin 1)) (ix2 o d) ?_).trans rfl
  rw [Shape.rowMajor_val_two, Shape.rowMajor_val_five]
  show o.val * 16 + d.val = (((0 * 1 + 0) * 10 + o.val) * 16 + d.val) * 1 + 0
  omega

/-! ## The run -/

/-- Every weakly fair execution of the idealized kernel terminates with the result at the routed capsules of the
    arguments as launched, and the arguments unchanged. -/
theorem run : θ_run defs (onTc (τ := τ) (main (F := Ideal))) ⟨m, fun _ => 0, ρ⟩ fun r => ∀ c : Dev nD,
      r.2.mem ((c.tc : Thread nD τ).loc main_v2) = Capsule.routed (Wt m c) (Xin m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c)⟩)
    (run_main m ρ)

end Cert.KernelIdeal.Routed

end
-- ==== Proof.RefRouted.lean ====
/-
  The reference program computes the routed capsules.

  Read one operation at a time: `x` is laid out as a column per (capsule, output capsule) pair and `W` loses its
  leading unit axis, so the first batched product is the vote of capsule `n` for output `(o, d)`; the second
  batched product, against the constant `1/512` over a contracted axis of extent one, scales that vote by the
  weight; the sum over the capsule axis (from zero) is then the weighted mean in its "weight first" form
  (`Capsule.mean_eq_weighted`); and the remaining operations, all elementwise but for a sum over an axis of
  extent one, are the squashing map.  Every layout operation is read at an index built from literal coordinates;
  a reshape costs one row-major identity in the coordinates.
-/
import proofs.«157565_j69114613730131_1_alg».proof.Proof.Gen.ReferenceIdeal.Read
import proofs.«157565_j69114613730131_1_alg».proof.Proof.Capsule

noncomputable section

namespace Cert.ReferenceIdeal.Routed

open Idealize.ShloMosaic Idealize.ShloMosaic.ValueIdx
open Cert.ReferenceIdeal Cert.ReferenceIdeal.Read

variable (x0 : (⟨S512x8, .f32⟩ : BufTy).Contents (Elt Ideal)) (x1 : (⟨S1x512x10x16x8, .f32⟩ : BufTy).Contents (Elt Ideal))

/-! ## `x` as columns, `W` without its unit axis -/

/-- [512, 8] viewed as [1, 512, 8, 1]: the same row-major position. -/
theorem x_view (n : Fin 512) (k : Fin 8) :
    val_main_v0 (F := Ideal) x0 (ix4 (0 : Fin 1) n k (0 : Fin 1)) = x0 (ix2 n k) := by
  rw [val_main_v0_apply]
  refine congrArg x0 (funext fun a => Fin.ext ?_)
  have hn := n.isLt; have hk := k.isLt
  match a with
  | ⟨0, _⟩ => show (((0 * 512 + n.val) * 8 + k.val) * 1 + 0) / 8 = n.val; omega
  | ⟨1, _⟩ => show (((0 * 512 + n.val) * 8 + k.val) * 1 + 0) % 8 = k.val; omega

/-- A new unit axis for the output capsules, -/
theorem x_unit (n : Fin 512) (k : Fin 8) :
    val_main_v1 (F := Ideal) x0 (ix5 (0 : Fin 1) n (0 : Fin 1) k (0 : Fin 1)) = val_main_v0 (F := Ideal) x0 (ix4 (0 : Fin 1) n k (0 : Fin 1)) := by
  rw [val_main_v1_apply]
  exact congrArg _ (funext fun a => Fin.ext (by match a with | ⟨0, _⟩ => rfl | ⟨1, _⟩ => rfl | ⟨2, _⟩ => rfl | ⟨3, _⟩ => rfl))

/-- repeated for each of the 10 output capsules, -/
theorem x_rep (n : Fin 512) (o : Fin 10) (k : Fin 8) :
    val_main_v2 (F := Ideal) x0 (ix5 (0 : Fin 1) n o k (0 : Fin 1)) = val_main_v1 (F := Ideal) x0 (ix5 (0 : Fin 1) n (0 : Fin 1) k (0 : Fin 1)) := by
  rw [val_main_v2_apply]
  exact congrArg _ (funext fun a => Fin.ext (by match a with | ⟨0, _⟩ => rfl | ⟨1, _⟩ => rfl | ⟨2, _⟩ => rfl | ⟨3, _⟩ => rfl | ⟨4, _⟩ => rfl))

/-- and the leading unit axis dropped: entry (n, o, k, 0) is `x[n, k]`. -/
theorem x_col (n : Fin 512) (o : Fin 10) (k : Fin 8) :
    val_main_v4 (F := Ideal) x0 (ix4 n o k (0 : Fin 1)) = x0 (ix2 n k) := by
  rw [val_main_v4_apply]
  refine (congrArg (val_main_v2 (F := Ideal) x0)
    (?_ : idx_main_v4 (ix4 n o k (0 : Fin 1)) = ix5 (0 : Fin 1) n o k (0 : Fin 1))).trans
    ((x_rep x0 n o k).trans ((x_unit x0 n k).trans (x_view x0 n k)))
  refine funext fun a => Fin.ext ?_
  have hn := n.isLt; have ho := o.isLt; have hk := k.isLt
  match a with
  | ⟨0, _⟩ => rfl
  | ⟨1, _⟩ => show (((n.val * 10 + o.val) * 8 + k.val) * 1 + 0) / 80 % 512 = n.val; omega
  | ⟨2, _⟩ => show (((n.val * 10 + o.val) * 8 + k.val) * 1 + 0) / 8 % 10 = o.val; omega
  | ⟨3, _⟩ => show (((n.val * 10 + o.val) * 8 + k.val) * 1 + 0) / 1 % 8 = k.val; omega
  | ⟨4, _⟩ => rfl

/-- `W` without its leading unit axis: entry (n, o, d, k) is `W[0, n, o, d, k]`. -/
theorem w_row (n : Fin 512) (o : Fin 10) (d : Fin 16) (k : Fin 8) :
    val_main_v3 (F := Ideal) x1 (ix4 n o d k) = x1 (ix5 (0 : Fin 1) n o d k) := by
  rw [val_main_v3_apply]
  refine congrArg x1 (funext fun a => Fin.ext ?_)
  have hn := n.isLt; have ho := o.isLt; have hd := d.isLt; have hk := k.isLt
  match a with
  | ⟨0, _⟩ => rfl
  | ⟨1, _⟩ => show (((n.val * 10 + o.val) * 16 + d.val) * 8 + k.val) / 1280 % 512 = n.val; omega
  | ⟨2, _⟩ => show (((n.val * 10 + o.val) * 16 + d.val) * 8 + k.val) / 128 % 10 = o.val; omega
  | ⟨3, _⟩ => show (((n.val * 10 + o.val) * 16 + d.val) * 8 + k.val) / 8 % 16 = d.val; omega
  | ⟨4, _⟩ => show (((n.val * 10 + o.val) * 16 + d.val) * 8 + k.val) % 8 = k.val; omega

/-! ## The votes, and the votes weighted -/

/-- The first batched product: the vote of capsule `n` for output `(o, d)`. -/
theorem vote_at (n : Fin 512) (o : Fin 10) (d : Fin 16) :
    val_main_v5 (F := Ideal) x0 x1 (ix4 n o d (0 : Fin 1)) = Capsule.vote x1 x0 n o d := by
  rw [val_main_v5_apply]
  unfold Capsule.vote
  refine Finset.sum_congr rfl fun k _ => ?_
  rw [show lidx_main_v5 (ix4 n o d (0 : Fin 1)) k = ix4 n o d k from funext fun a => Fin.ext (by match a with | ⟨0, _⟩ => rfl | ⟨1, _⟩ => rfl | ⟨2, _⟩ => rfl | ⟨3, _⟩ => rfl),
    show ridx_main_v5 (ix4 n o d (0 : Fin 1)) k = ix4 n o k (0 : Fin 1) from funext fun a => Fin.ext (by match a with | ⟨0, _⟩ => rfl | ⟨1, _⟩ => rfl | ⟨2, _⟩ => rfl | ⟨3, _⟩ => rfl),
    w_row, x_col]

/-- The votes with a leading unit axis, -/
theorem vote_lead (n : Fin 512) (o : Fin 10) (d : Fin 16) :
    val_main_v6 (F := Ideal) x0 x1 (ix5 (0 : Fin 1) n o d (0 : Fin 1)) = val_main_v5 (F := Ideal) x0 x1 (ix4 n o d (0 : Fin 1)) := by
  rw [val_main_v6_apply]
  exact congrArg _ (funext fun a => Fin.ext (by match a with | ⟨0, _⟩ => rfl | ⟨1, _⟩ => rfl | ⟨2, _⟩ => rfl | ⟨3, _⟩ => rfl))

/-- their last two axes exchanged, -/
theorem vote_swap (n : Fin 512) (o : Fin 10) (d : Fin 16) :
    val_main_v8 (F := Ideal) x0 x1 (ix5 (0 : Fin 1) n o (0 : Fin 1) d) = val_main_v6 (F := Ideal) x0 x1 (ix5 (0 : Fin 1) n o d (0 : Fin 1)) := by
  rw [val_main_v8_apply]
  exact congrArg _ (funext fun a => Fin.ext (by match a with | ⟨0, _⟩ => rfl | ⟨1, _⟩ => rfl | ⟨2, _⟩ => rfl | ⟨3, _⟩ => rfl | ⟨4, _⟩ => rfl))

/-- and the leading unit axis dropped again. -/
theorem vote_rowvec (n : Fin 512) (o : Fin 10) (d : Fin 16) :
    val_main_v10 (F := Ideal) x0 x1 (ix4 n o (0 : Fin 1) d) = Capsule.vote x1 x0 n o d := by
  rw [val_main_v10_apply]
  refine (congrArg (val_main_v8 (F := Ideal) x0 x1)
    (?_ : idx_main_v10 (ix4 n o (0 : Fin 1) d) = ix5 (0 : Fin 1) n o (0 : Fin 1) d)).trans
    ((vote_swap x0 x1 n o d).trans ((vote_lead x0 x1 n o d).trans (vote_at x0 x1 n o d)))
  refine funext fun a => Fin.ext ?_
  have hn := n.isLt; have ho := o.isLt; have hd := d.isLt
  match a with
  | ⟨0, _⟩ => rfl
  | ⟨1, _⟩ => show (((n.val * 10 + o.val) * 1 + 0) * 16 + d.val) / 160 % 512 = n.val; omega
  | ⟨2, _⟩ => show (((n.val * 10 + o.val) * 1 + 0) * 16 + d.val) / 16 % 10 = o.val; omega
  | ⟨3, _⟩ => rfl
  | ⟨4, _⟩ => show (((n.val * 10 + o.val) * 1 + 0) * 16 + d.val) % 16 = d.val; omega

/-- The coupling coefficients: the weight everywhere. -/
theorem coupling_at (j : S512x10x1x1.Idx) : val_main_v9 (F := Ideal) j = Capsule.weight := by
  rw [val_main_v9_apply, val_main_v7_apply, val_main_cst_apply]; rfl

/-- The second batched product contracts an axis of extent one: the weight times the vote. -/
theorem weighted_at (n : Fin 512) (o : Fin 10) (d : Fin 16) :
    val_main_v11 (F := Ideal) x0 x1 (ix4 n o (0 : Fin 1) d) = Capsule.weight * Capsule.vote x1 x0 n o d := by
  rw [val_main_v11_apply, Fin.sum_univ_one, coupling_at,
    show ridx_main_v11 (ix4 n o (0 : Fin 1) d) (0 : Fin 1) = ix4 n o (0 : Fin 1) d from funext fun a => Fin.ext (by match a with | ⟨0, _⟩ => rfl | ⟨1, _⟩ => rfl | ⟨2, _⟩ => rfl | ⟨3, _⟩ => rfl),
    vote_rowvec]

/-! ## The weighted mean -/

/-- The sum over the capsule axis, from zero, of the weighted votes: the mean, for output `(o, d)`. -/
theorem mean_at (o : Fin 10) (d : Fin 16) :
    val_main_v15 (F := Ideal) x0 x1 (ix5 (0 : Fin 1) (0 : Fin 1) o d (0 : Fin 1)) = Capsule.mean x1 x0 o d := by
  rw [val_main_v15_apply,
    show idx_main_v15 (ix5 (0 : Fin 1) (0 : Fin 1) o d (0 : Fin 1)) = ix5 (0 : Fin 1) (0 : Fin 1) o (0 : Fin 1) d from funext fun a => Fin.ext (by match a with | ⟨0, _⟩ => rfl | ⟨1, _⟩ => rfl | ⟨2, _⟩ => rfl | ⟨3, _⟩ => rfl | ⟨4, _⟩ => rfl),
    val_main_v14_apply,
    show idx_main_v14 (ix5 (0 : Fin 1) (0 : Fin 1) o (0 : Fin 1) d) = ix4 (0 : Fin 1) o (0 : Fin 1) d from funext fun a => Fin.ext (by match a with | ⟨0, _⟩ => rfl | ⟨1, _⟩ => rfl | ⟨2, _⟩ => rfl | ⟨3, _⟩ => rfl),
    val_main_v13_apply, val_main_cst_0_apply, ← Capsule.mean_eq_weighted]
  refine congrArg₂ (· + ·) Ideal.ofBits_zero_f32 (Finset.sum_congr rfl fun n _ => ?_)
  rw [show idx_main_v13 (ix4 (0 : Fin 1) o (0 : Fin 1) d) n = ix5 (0 : Fin 1) n o (0 : Fin 1) d from funext fun a => Fin.ext (by match a with | ⟨0, _⟩ => rfl | ⟨1, _⟩ => rfl | ⟨2, _⟩ => rfl | ⟨3, _⟩ => rfl | ⟨4, _⟩ => rfl),
    val_main_v12_apply,
    show idx_main_v12 (ix5 (0 : Fin 1) n o (0 : Fin 1) d) = ix4 n o (0 : Fin 1) d from funext fun a => Fin.ext (by match a with | ⟨0, _⟩ => rfl | ⟨1, _⟩ => rfl | ⟨2, _⟩ => rfl | ⟨3, _⟩ => rfl),
    weighted_at]

/-! ## The squashing map -/

/-- The rest of the program at output `(o, d)`: the squashing map of the mean there (the square summed over an axis
    of extent one, from zero, is the square). -/
theorem routed_at (o : Fin 10) (d : Fin 16) :
    val_main_v28 (F := Ideal) x0 x1 (ix5 (0 : Fin 1) (0 : Fin 1) o d (0 : Fin 1)) = Capsule.squash (Capsule.mean x1 x0 o d) := by
  rw [← mean_at x0 x1 o d]
  rw [val_main_v28_apply, val_main_v27_apply, val_main_v26_apply, val_main_v25_apply, val_main_cst_4_apply,
    val_main_v24_apply, val_main_v23_apply, val_main_v22_apply, val_main_cst_3_apply, val_main_v21_apply,
    val_main_v20_apply, val_main_v19_apply, val_main_cst_2_apply, val_main_v18_apply, val_main_v17_apply,
    val_main_cst_1_apply, Fin.sum_univ_one, val_main_v16_apply,
    show idx_main_v17 (idx_main_v18 (ix5 (0 : Fin 1) (0 : Fin 1) o d (0 : Fin 1))) (0 : Fin 1) = ix5 (0 : Fin 1) (0 : Fin 1) o d (0 : Fin 1) from funext fun a => Fin.ext (by match a with | ⟨0, _⟩ => rfl | ⟨1, _⟩ => rfl | ⟨2, _⟩ => rfl | ⟨3, _⟩ => rfl | ⟨4, _⟩ => rfl)]
  generalize val_main_v15 (F := Ideal) x0 x1 (ix5 (0 : Fin 1) (0 : Fin 1) o d (0 : Fin 1)) = s
  unfold Capsule.squash Capsule.one Capsule.eps
  simp only [Ideal.mulf_def, Ideal.addf_def, Ideal.hostDivf_def, Ideal.hostUnary_sqrt_def, Ideal.ofBits_def,
    Ideal.ofBits_zero_f32, zero_add]

/-- The reference's result array is the routed capsules. -/
theorem routed_eq : val_main_v28 (F := Ideal) x0 x1 = Capsule.routed x1 x0 := by
  funext i
  obtain ⟨a, b, o, d, e, rfl⟩ : ∃ (a : Fin 1) (b : Fin 1) (o : Fin 10) (d : Fin 16) (e : Fin 1), i = ix5 a b o d e :=
    ⟨i 0, i 1, i 2, i 3, i 4, eq_ix5 i⟩
  obtain rfl : a = 0 := Subsingleton.elim _ _
  obtain rfl : b = 0 := Subsingleton.elim _ _
  obtain rfl : e = 0 := Subsingleton.elim _ _
  rw [routed_at]
  rfl

end Cert.ReferenceIdeal.Routed

end
-- ==== Proof.lean ====
/-
  `Cert.Claim` for the capsule-routing kernel against its reference.

  The computation (Proof/Capsule.lean): every one of 512 input capsules votes for every output `(o, d)` of
  10 × 16 — the inner product over 8 input coordinates of a weight row with the capsule's input —, the output is
  the mean of the votes with the uniform weight `1/512`, squashed coordinatewise.

  * The kernel (Proof/Pieces.lean, Proof/Payload.lean, Proof/KernelRouted.lean) walks the capsules in 8 tiles of
    64, adds each tile's votes into an accumulator it keeps between grid points, and at the last point scales the
    total by the weight, squashes it, and writes the [10, 16] block out once; a reshape lays it out as
    [1, 1, 10, 16, 1].
  * The reference (Proof/RefRouted.lean) forms all votes by one batched product, scales each by the weight through
    a second batched product over an axis of extent one, sums over the capsules from zero, and squashes.
  * They agree at the ideal instance because a sum over all capsules is the sum over the tiles of the sums inside
    the tiles, and because a nonnegative factor that is not `⊤` may multiply a sum of extended reals or each of its
    terms, whatever the terms are.  No finiteness of the inputs is used: the precondition is never opened.

  The frames of the two kernel programs are the generated ones; the reference's frame is its generated run with
  the result dropped; the idealization rewrote nothing, so `preserves` is `True`.
-/
import proofs.«157565_j69114613730131_1_alg».proof.Defs
import proofs.«157565_j69114613730131_1_alg».proof.Proof.Gen.Kernel
import proofs.«157565_j69114613730131_1_alg».proof.Proof.Gen.Kernel.Skeleton
import proofs.«157565_j69114613730131_1_alg».proof.Proof.Gen.Kernel.Launch
import proofs.«157565_j69114613730131_1_alg».proof.Proof.Gen.Kernel.Points
import proofs.«157565_j69114613730131_1_alg».proof.Proof.Gen.Kernel.Frame
import proofs.«157565_j69114613730131_1_alg».proof.Proof.Gen.KernelIdeal
import proofs.«157565_j69114613730131_1_alg».proof.Proof.Gen.KernelIdeal.Skeleton
import proofs.«157565_j69114613730131_1_alg».proof.Proof.Gen.KernelIdeal.Launch
import proofs.«157565_j69114613730131_1_alg».proof.Proof.Gen.KernelIdeal.Points
import proofs.«157565_j69114613730131_1_alg».proof.Proof.Gen.KernelIdeal.Frame
import proofs.«157565_j69114613730131_1_alg».proof.Proof.Gen.ReferenceIdeal
import proofs.«157565_j69114613730131_1_alg».proof.Proof.Gen.ReferenceIdeal.Run
import proofs.«157565_j69114613730131_1_alg».proof.Proof.Gen.ReferenceIdeal.Read
import proofs.«157565_j69114613730131_1_alg».proof.Proof.Gen.Pre_finite_inputs
import proofs.«157565_j69114613730131_1_alg».proof.Proof.KernelRouted
import proofs.«157565_j69114613730131_1_alg».proof.Proof.RefRouted
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the routed capsules of the arguments, which agree. -/
theorem algebraic : Cert.algebraic_KernelIdeal_ReferenceIdeal := by
  intro m ρ m' ρ' _ hagree
  refine ⟨fun c => Cert.Capsule.routed (Cert.KernelIdeal.Routed.Wt m c) (Cert.KernelIdeal.Routed.Xin m c),
    Cert.KernelIdeal.Routed.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.Routed.routed_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
